-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x64 .f32) (main_arg8 : FVec F S64 .f32) (main_arg9 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x64 .f32) (main_arg8 : FVec F S64 .f32) (main_arg9 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 63
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x64, .f32⟩
  | .hbm, ⟨62, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x64, .f32⟩
  | .local _ .vmem, ⟨16, _⟩ => ⟨S1x64, .f32⟩
  | .local _ .vmem, ⟨17, _⟩ => ⟨S128x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S_, .f32⟩
  | .hbm, ⟨91, _⟩ => ⟨S1600000, .f32⟩
  | .hbm, ⟨92, _⟩ => ⟨S_, .f32⟩
  | .hbm, ⟨93, _⟩ => ⟨S100000, .f32⟩
  | .hbm, ⟨94, _⟩ => ⟨S1600000x1, .i32⟩
  | .hbm, ⟨95, _⟩ => ⟨S100000, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S_, .f32⟩
  | .hbm, ⟨114, _⟩ => ⟨S100000x1, .f32⟩
  | .hbm, ⟨115, _⟩ => ⟨S100000x1, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostChain.lean ====
/-
  What the kernel program's host operations leave in the buffers its two regions read, stated through the reference
  program's own stages.

  Before the first region the host slices the edge list into its two endpoint vectors, counts each node's incoming
  edges, takes the reciprocal of the floored count as a column, sums the gathered input rows per node and multiplies
  by that column; it also lays the three 128-vectors out as single rows.  Between the regions it sums the gathered
  rows of the first region's result per node and multiplies by the same column, and lays the 64-vector out as a row.
  The gather, the two segment sums and the count are the very operations the reference applies, in the same order, so
  each buffer is the reference's stage of the same arguments; only the multiplication by the reciprocal column has no
  counterpart there.  Stated for any float family, where comparing the two programs' operation chains is structural.
-/
import proofs.«136617_j46145128628312_1_alg».proof.Proof.Gen.KernelIdeal.Frame
import proofs.«136617_j46145128628312_1_alg».proof.Proof.RefRead
import Idealize.ShloMosaic.Lib.StableHlo.Run

set_option maxRecDepth 16384

noncomputable section

namespace Cert.Sage.HostChain

open Cert.KernelIdeal Cert.KernelIdeal.Gen
open Idealize.ShloMosaic Idealize.ShloMosaic.TcCoe Idealize.SL.Sem Idealize.ShloMosaic.StableHlo

variable {F : FTy → Type} [FloatOps F]

/-- The reciprocal of a count vector, as a column: `1 / d` entry by entry. -/
def invCol (d : FVec F S100000 .f32) : FVec F S100000x1 .f32 :=
  broadcastInDim S100000x1 ![0] bcast_S100000_S100000x1_0
    (Host.divf (broadcastInDim S100000 ![] bcast_S_S100000 (constant (F := F) S_ .f32 0x3F800000#32)) d)

/-- A column repeated over the 128 columns of the node arrays. -/
def spread (v : FVec F S100000x1 .f32) : FVec F S100000x128 .f32 :=
  broadcastInDim S100000x128 ![0, 1] bcast_S100000x1_S100000x128_0_1 v

/-- The per-node sum of the rows of `h` gathered along the edges: rows looked up at the edges' first endpoints
    (a negative index counted from the end), summed at their second endpoints. -/
def segsum (h : FVec F S100000x128 .f32) (v1 v3 : IVec S1600000 32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 v3)
    (Host.gather gather_S100000x128_S1600000x1_S1600000x128_1_0_n_n_0_1_1128 h
      (broadcastInDim S1600000x1 ![0] bcast_S1600000_S1600000x1_0
        (select (cmpi .slt v1 (broadcastInDim S1600000 ![] bcast_S_S1600000 (constantI S_ 32 0#32)))
          (addi v1 (broadcastInDim S1600000 ![] bcast_S_S1600000 (constantI S_ 32 100000#32))) v1)))

/-! ## The reference's segment sums are that function -/

theorem ref_sum1 (x0 : (⟨S100000x128, .f32⟩ : BufTy).Contents (Elt F)) (x1 : (⟨S2x1600000, .i32⟩ : BufTy).Contents (Elt F)) :
    Cert.ReferenceIdeal.ReadP.val_main_v13 (F := F) x0 x1 = segsum x0 (Cert.ReferenceIdeal.ReadP.val_main_v1 (F := F) x1) (Cert.ReferenceIdeal.ReadP.val_main_v3 (F := F) x1) := rfl

theorem ref_sum2 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 x6 : (⟨S128, .f32⟩ : BufTy).Contents (Elt F)) :
    Cert.ReferenceIdeal.ReadP.val_main_v63 (F := F) x0 x1 x2 x3 x4 x5 x6
      = segsum (Cert.ReferenceIdeal.ReadP.val_main_v53 (F := F) x0 x1 x2 x3 x4 x5 x6) (Cert.ReferenceIdeal.ReadP.val_main_v1 (F := F) x1) (Cert.ReferenceIdeal.ReadP.val_main_v3 (F := F) x1) := rfl

variable (m : (ℓ : Loc nD τ sig) → Buf (Elt F) ℓ) (ρ : Dev nD → PrngReg) (c : Dev nD)

/-! ## Before the first region -/

theorem pre_v1 : W1 m ρ c (Proc.devRef .tc main_v1) = Cert.ReferenceIdeal.ReadP.val_main_v1 (F := F) (m ((c : Thread nD τ).loc main_arg1)) := by
  show StableHlo.after hostOps0 (W0 m ρ c) (Proc.devRef .tc main_v1) = _
  after_results <;> rfl

theorem pre_v3 : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results <;> rfl

theorem pre_v12 : W1 m ρ c (Proc.devRef .tc main_v12) = invCol (Cert.ReferenceIdeal.ReadP.val_main_v19 (F := F) (m ((c : Thread nD τ).loc main_arg1))) := by
  show StableHlo.after hostOps0 (W0 m ρ c) (Proc.devRef .tc main_v12) = _
  after_results <;> rfl

set_option maxHeartbeats 4000000 in
theorem pre_v24 : W1 m ρ c (Proc.devRef .tc main_v24)
    = mulf (Cert.ReferenceIdeal.ReadP.val_main_v13 (F := F) (m ((c : Thread nD τ).loc main_arg0)) (m ((c : Thread nD τ).loc main_arg1))) (spread (invCol (Cert.ReferenceIdeal.ReadP.val_main_v19 (F := F) (m ((c : Thread nD τ).loc main_arg1))))) := by
  show StableHlo.after hostOps0 (W0 m ρ c) (Proc.devRef .tc main_v24) = _
  after_results_simp <;> rfl

theorem pre_v25 : W1 m ρ c (Proc.devRef .tc main_v25) = shapeCast S1x128 (m ((c : Thread nD τ).loc main_arg3)) shapeCasts_S128_S1x128 := by
  show StableHlo.after hostOps0 (W0 m ρ c) (Proc.devRef .tc main_v25) = _
  after_results <;> rfl

theorem pre_v26 : W1 m ρ c (Proc.devRef .tc main_v26) = shapeCast S1x128 (m ((c : Thread nD τ).loc main_arg5)) shapeCasts_S128_S1x128 := by
  show StableHlo.after hostOps0 (W0 m ρ c) (Proc.devRef .tc main_v26) = _
  after_results <;> rfl

theorem pre_v27 : W1 m ρ c (Proc.devRef .tc main_v27) = shapeCast S1x128 (m ((c : Thread nD τ).loc main_arg6)) shapeCasts_S128_S1x128 := by
  show StableHlo.after hostOps0 (W0 m ρ c) (Proc.devRef .tc main_v27) = _
  after_results <;> rfl

theorem pre_arg (b : Ref sig .tc) (hb : b = main_arg0 ∨ b = main_arg2 ∨ b = main_arg4 ∨ b = main_arg7 ∨ b = main_arg8 ∨ b = main_arg9) :
    W1 m ρ c (Proc.devRef .tc b) = m ((c : Thread nD τ).loc b) := by
  show StableHlo.after hostOps0 (W0 m ρ c) (Proc.devRef .tc b) = _
  rcases hb with rfl | rfl | rfl | rfl | rfl | rfl <;> (after_results <;> rfl)

/-! ## Between the regions -/

set_option maxHeartbeats 4000000 in
theorem mid_v40 : W3 m ρ c (Proc.devRef .tc main_v40)
    = mulf (segsum (W2 m ρ c (Proc.devRef .tc main_v28)) (W2 m ρ c (Proc.devRef .tc main_v1)) (W2 m ρ c (Proc.devRef .tc main_v3)))
        (spread (W2 m ρ c (Proc.devRef .tc main_v12))) := by
  show StableHlo.after hostOps1 (W2 m ρ c) (Proc.devRef .tc main_v40) = _
  after_results_simp <;> rfl

theorem mid_v41 : W3 m ρ c (Proc.devRef .tc main_v41) = shapeCast S1x64 (W2 m ρ c (Proc.devRef .tc main_arg8)) shapeCasts_S64_S1x64 := by
  show StableHlo.after hostOps1 (W2 m ρ c) (Proc.devRef .tc main_v41) = _
  after_results <;> rfl

theorem mid_keep (b : Ref sig .tc) (hb : b = main_v28 ∨ b = main_arg7 ∨ b = main_arg9) :
    W3 m ρ c (Proc.devRef .tc b) = W2 m ρ c (Proc.devRef .tc b) := by
  show StableHlo.after hostOps1 (W2 m ρ c) (Proc.devRef .tc b) = _
  rcases hb with rfl | rfl | rfl <;> (after_results <;> rfl)

end Cert.Sage.HostChain

end
-- ==== Proof.Spec.lean ====
/-
  The mathematics both programs compute, row by row, on the extended reals.

  One graph-convolution layer takes, for a node, the row `a` of its neighbours' mean and its own row `x`, and forms
  `lin a x j = (∑ₖ a k · Wl k j + bl j) + ∑ₖ x k · Wr k j`.  The first layer then normalises that row
  (`normRelu`: subtract the row's mean, scale by the reciprocal root of the row's variance plus a constant, an affine
  map, the positive part); the second divides the row by its Euclidean length, floored by a constant (`unitRow`).

  The neighbours' mean is a segment sum divided by a count `d ≥ 1`.  One program divides by `d`, the other multiplies
  by `1 / d`; on the extended reals these agree for every numerator, finite or not, because `d` is a nonzero real
  (`mul_one_div_eq_div`).  The count is a sum of ones over a finite set (`count_real`).
-/
import Idealize.ShloMosaic.PureOps.Ideal
import Idealize.ShloMosaic.PureOps.Ideal.Laws
import Idealize.ShloMosaic.Lib.ValueIdx

noncomputable section

open scoped BigOperators

namespace Cert.Sage

open Idealize.ShloMosaic

/-! ## The rows -/

/-- A layer's linear part at output column `j`: neighbours' mean through `Wl`, the bias, the node's own row
    through `Wr`, grouped as both programs group them. -/
def lin {K J : Nat} (a x : Fin K → EReal) (Wl Wr : Fin K → Fin J → EReal) (bl : Fin J → EReal) (j : Fin J) : EReal :=
  ((∑ k : Fin K, a k * Wl k j) + bl j) + ∑ k : Fin K, x k * Wr k j

/-- The divisor of a mean over 128 columns, the variance's additive constant, the floor of a row's length and the
    zero a positive part is taken against: the words both programs print, never evaluated. -/
abbrev w128 : EReal := Ideal.ofBits .f32 0x43000000#32
abbrev wEps : EReal := Ideal.ofBits .f32 0x3727C5AC#32
abbrev wFloor : EReal := Ideal.ofBits .f32 0x2B8CBCCC#32
abbrev wZero : EReal := Ideal.ofBits .f32 0x00000000#32

/-- The row's mean. -/
def rowMean (h : Fin 128 → EReal) : EReal := Ideal.div (∑ j : Fin 128, h j) w128

/-- The row's variance about its mean. -/
def rowVar (h : Fin 128 → EReal) : EReal :=
  Ideal.div (∑ j : Fin 128, (h j - rowMean h) * (h j - rowMean h)) w128

/-- Normalise a row, apply the affine map, keep the positive part. -/
def normRelu (h g b : Fin 128 → EReal) (j : Fin 128) : EReal :=
  max (((h j - rowMean h) * Ideal.rsqrt (rowVar h + wEps)) * g j + b j) wZero

/-- A row divided by its Euclidean length, the length floored. -/
def unitRow (h : Fin 64 → EReal) (j : Fin 64) : EReal :=
  Ideal.div (h j) (max (Ideal.sqrt (∑ q : Fin 64, h q * h q)) wFloor)

/-! ## Dividing by a count -/

/-- The word of `1.0` is the real one. -/
theorem ofBits_one : Ideal.ofBits .f32 0x3F800000#32 = (1 : EReal) := by
  simp [Ideal.ofBits, Ideal.ieee]
  exact_mod_cast (by norm_num : (8388608 : ℝ) * ((2 : ℝ) ^ 23)⁻¹ = 1)

/-- Multiplying by the reciprocal of a nonzero real is dividing by it, whatever the numerator. -/
theorem mul_one_div_eq_div {d : ℝ} (hd : d ≠ 0) (a : EReal) :
    a * Ideal.div 1 (d : EReal) = Ideal.div a (d : EReal) := by
  rw [Ideal.div_coe hd, Ideal.div_coe hd, one_mul]

/-- A sum of ones over a finite set is the set's size, a real. -/
theorem sum_ones {ι : Type} (S : Finset ι) : (∑ _e ∈ S, (1 : EReal)) = ((S.card : ℝ) : EReal) := by
  classical
  induction S using Finset.induction_on with
  | empty => simp
  | insert a s ha ih =>
    rw [Finset.sum_insert ha, ih, Finset.card_insert_of_notMem ha]
    show ((1 : ℝ) : EReal) + _ = _
    rw [← EReal.coe_add]
    congr 1
    push_cast
    ring

/-- A sum of ones over a finite set, floored at one, is a nonzero real. -/
theorem count_real {ι : Type} (S : Finset ι) :
    ∃ d : ℝ, d ≠ 0 ∧ max ((0 : EReal) + ∑ _e ∈ S, (1 : EReal)) 1 = (d : EReal) := by
  refine ⟨max (S.card : ℝ) 1, ?_, ?_⟩
  · have h1 : (1 : ℝ) ≤ max (S.card : ℝ) 1 := le_max_right _ _
    intro h; rw [h] at h1; norm_num at h1
  · rw [zero_add, sum_ones]
    show max (((S.card : ℝ)) : EReal) ((1 : ℝ) : EReal) = _
    exact (EReal.coe_strictMono.monotone.map_max).symm

end Cert.Sage

end
-- ==== Proof.LibCol.lean ====
/-
  Two readings of a column `[a, 1]`, the shape a row reduction leaves when its axis is kept:

  * a length-`a` vector cast to the column reads, at `(p, 0)`, the vector at `p`;
  * the column broadcast over `b` columns reads, at `(p, c)`, the column at `(p, 0)`.

  Both are stated over literal shapes with the side condition a variable, so they apply to any program's cast or
  broadcast of those shapes.
-/
import Idealize.ShloMosaic.Lib.Pipeline.Value
import Idealize.ShloMosaic.Lib.ValueIdx

namespace Cert.LibCol

open Idealize.ShloMosaic Idealize.ShloMosaic.ValueIdx

variable {α : Type}

/-- An `[a]` array cast to `[a, 1]` reads, at `(p, 0)`, the operand at `p`: both sit at row-major position `p`. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    rw [Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibCol
-- ==== Proof.Block1.lean ====
/-
  What the first layer's kernel leaves in its output block, entry by entry.

  The body reads a 5000-row block `a` of neighbours' means, the same rows `x` of the nodes' own features, the two
  128 × 128 weight matrices and three single rows (bias, scale, shift).  Its stored value at row `p`, column `q` is
  `normRelu (lin a[p,·] x[p,·] Wl Wr bias) scale shift q`: the matrix products are sums over the 128 inner columns,
  the two row reductions sums over the 128 columns of the row, and every other operation acts entry by entry (the
  changes of float format are the identity on extended reals).
-/
import proofs.«136617_j46145128628312_1_alg».proof.Proof.Gen.KernelIdeal.Skeleton
import proofs.«136617_j46145128628312_1_alg».proof.Proof.Spec
import proofs.«136617_j46145128628312_1_alg».proof.Proof.LibCol
import Idealize.ShloMosaic.Lib.ValueIdx
import Idealize.ShloMosaic.Lib.ValueLayout
import Idealize.ShloMosaic.PureOps.Ideal.Laws

noncomputable section

open scoped BigOperators

namespace Cert.Sage.Block1

open Idealize.ShloMosaic Idealize.ShloMosaic.ValueIdx Cert.KernelIdeal Cert.KernelIdeal.Gen

/-! ## A 5000-row block times a 128 × 128 matrix -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `p` and column `j`: the sum over the inner index of the left row's
    entry times the right column's. -/
theorem prod_apply {φ₁ φ₂ : FTy} (l : FVec Ideal S5000x128 φ₁) (r : FVec Ideal S128x128 φ₂) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  refine (Ideal.matmul_constant_zero_apply dot_S5000x128_S128x128_S5000x128_1_0_0_1_n_n none l r (ix2 p j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-! ## The linear part -/

/-- The block before normalisation, as the body writes it. -/
def preAct (v0 v3 : FVec Ideal S5000x128 .f32) (v5 v7 : FVec Ideal S128x128 .f32) (v10 : FVec Ideal S1x128 .f32) :
    FVec Ideal S5000x128 .f32 :=
  addf (addf (matmul dot_S5000x128_S128x128_S5000x128_1_0_0_1_n_n none (truncf .bf16 (shapeCast S5000x128 v0 shapeCasts_S5000x128_S5000x128) bitsLt_bf16_f32)
        (truncf .bf16 v5 bitsLt_bf16_f32) (constant (F := Ideal) S5000x128 .f32 0x00000000#32))
      (broadcastTo S5000x128 (shapeCast S1x128 v10 shapeCasts_S1x128_S1x128) broadcasts_S1x128_S5000x128))
    (matmul dot_S5000x128_S128x128_S5000x128_1_0_0_1_n_n none (truncf .bf16 v3 bitsLt_bf16_f32) (truncf .bf16 v7 bitsLt_bf16_f32)
      (constant (F := Ideal) S5000x128 .f32 0x00000000#32))

/-- Entry `(p, j)` of it is the layer's linear part of row `p` at column `j`. -/
theorem preAct_apply (v0 v3 : FVec Ideal S5000x128 .f32) (v5 v7 : FVec Ideal S128x128 .f32) (v10 : FVec Ideal S1x128 .f32)
    (p : Fin 5000) (j : Fin 128) :
    preAct v0 v3 v5 v7 v10 (ix2 p j)
      = Cert.Sage.lin (fun k => v0 (ix2 p k)) (fun k => v3 (ix2 p k)) (fun k j => v5 (ix2 k j)) (fun k j => v7 (ix2 k j))
          (fun j => v10 (ix2 (0 : Fin 1) j)) j := by
  unfold preAct Cert.Sage.lin
  rw [addf_apply, addf_apply, prod_apply, prod_apply, broadcastTo_1b_ab_apply, shapeCast_self, shapeCast_self]
  rfl

/-! ## The row reductions -/

/-- The sum of a block's row. -/
theorem rowSum_apply (h : FVec Ideal S5000x128 .f32) (p : Fin 5000) :
    multiReduction .add [1] S5000 h 0x00000000#32 reduces_S5000x128_S5000 (.inl rfl) rfl (ix1 p)
      = ∑ k : Fin 128, h (ix2 p k) := by
  refine (Ideal.multiReduction_add_single h 0x00000000#32 reduces_S5000x128_S5000 (.inl rfl) rfl (ix1 p)).trans ?_
  refine Finset.sum_congr rfl fun k _ => congrArg h ?_
  funext a
  match a with
  | ⟨0, _⟩ => rfl
  | ⟨1, _⟩ => rfl

/-- A block's row sums over 128, kept as a column. -/
def meanCol (h : FVec Ideal S5000x128 .f32) : FVec Ideal S5000x1 .f32 :=
  divf (shapeCast S5000x1 (multiReduction .add [1] S5000 h 0x00000000#32 reduces_S5000x128_S5000 (.inl rfl) rfl)
      shapeCasts_S5000_S5000x1)
    (broadcast S5000x1 (Scalar.ofBits (F := Ideal) .f32 0x43000000#32))

theorem meanCol_apply (h : FVec Ideal S5000x128 .f32) (p : Fin 5000) :
    meanCol h (ix2 p (0 : Fin 1)) = Ideal.div (∑ k : Fin 128, h (ix2 p k)) Cert.Sage.w128 := by
  unfold meanCol
  rw [divf_apply, Cert.LibCol.shapeCast_a_a1_apply, rowSum_apply]
  rfl

/-- A block with each row's mean subtracted. -/
def centred (h : FVec Ideal S5000x128 .f32) : FVec Ideal S5000x128 .f32 :=
  subf h (broadcastTo S5000x128 (meanCol h) broadcasts_S5000x1_S5000x128)

theorem centred_apply (h : FVec Ideal S5000x128 .f32) (p : Fin 5000) (q : Fin 128) :
    centred h (ix2 p q) = h (ix2 p q) - Cert.Sage.rowMean (fun j => h (ix2 p j)) := by
  unfold centred Cert.Sage.rowMean
  rw [subf_apply, Cert.LibCol.broadcastTo_a1_ab_apply, meanCol_apply]

/-! ## The normalising tail -/

/-- Everything the body does to the linear part `h`: centre, scale by the reciprocal root of the variance plus the
    constant, the affine map with the two rows, the positive part. -/
def normTail (h : FVec Ideal S5000x128 .f32) (v32 v36 : FVec Ideal S1x128 .f32) : FVec Ideal S5000x128 .f32 :=
  maximumf
    (addf
      (mulf
        (mulf (centred h)
          (broadcastTo S5000x128
            (rsqrt (addf (meanCol (mulf (centred h) (centred h)))
              (broadcast S5000x1 (Scalar.ofBits (F := Ideal) .f32 0x3727C5AC#32))))
            broadcasts_S5000x1_S5000x128))
        (broadcastTo S5000x128 (shapeCast S1x128 v32 shapeCasts_S1x128_S1x128) broadcasts_S1x128_S5000x128))
      (broadcastTo S5000x128 (shapeCast S1x128 v36 shapeCasts_S1x128_S1x128) broadcasts_S1x128_S5000x128))
    (broadcast S5000x128 (Scalar.ofBits (F := Ideal) .f32 0x00000000#32))

/-- The stored value is that tail of the linear part: the body's text, regrouped. -/
theorem pay_eq (v0 v3 : FVec Ideal S5000x128 .f32) (v5 v7 : FVec Ideal S128x128 .f32) (v10 v32 v36 : FVec Ideal S1x128 .f32) :
    k0_pay1 (F := Ideal) (k0_pay2 v0 v3 v5 v7 v10 v32) (k0_pay3 v36) = normTail (preAct v0 v3 v5 v7 v10) v32 v36 := rfl

theorem normTail_apply (h : FVec Ideal S5000x128 .f32) (v32 v36 : FVec Ideal S1x128 .f32) (p : Fin 5000) (q : Fin 128) :
    normTail h v32 v36 (ix2 p q)
      = Cert.Sage.normRelu (fun j => h (ix2 p j)) (fun j => v32 (ix2 (0 : Fin 1) j)) (fun j => v36 (ix2 (0 : Fin 1) j)) q := by
  unfold normTail Cert.Sage.normRelu Cert.Sage.rowVar
  rw [maximumf_apply, addf_apply, mulf_apply, mulf_apply, Cert.LibCol.broadcastTo_a1_ab_apply,
    broadcastTo_1b_ab_apply, broadcastTo_1b_ab_apply, shapeCast_self, shapeCast_self, centred_apply]
  have hv : meanCol (mulf (centred h) (centred h)) (ix2 p (0 : Fin 1))
      = Ideal.div (∑ j : Fin 128, (h (ix2 p j) - Cert.Sage.rowMean (fun j => h (ix2 p j)))
          * (h (ix2 p j) - Cert.Sage.rowMean (fun j => h (ix2 p j)))) Cert.Sage.w128 := by
    rw [meanCol_apply]
    refine congrArg (Ideal.div · Cert.Sage.w128) (Finset.sum_congr rfl fun j _ => ?_)
    rw [mulf_apply, centred_apply]
  show max ((h (ix2 p q) - _) * Ideal.rsqrt (meanCol (mulf (centred h) (centred h)) (ix2 p (0 : Fin 1)) + _) * _ + _) _ = _
  rw [hv]
  rfl

/-- THE BLOCK'S ENTRY `(p, q)`: the first layer's row function of the loaded rows. -/
theorem pay_apply (v0 v3 : FVec Ideal S5000x128 .f32) (v5 v7 : FVec Ideal S128x128 .f32) (v10 v32 v36 : FVec Ideal S1x128 .f32)
    (p : Fin 5000) (q : Fin 128) :
    k0_pay1 (F := Ideal) (k0_pay2 v0 v3 v5 v7 v10 v32) (k0_pay3 v36) (ix2 p q)
      = Cert.Sage.normRelu
          (Cert.Sage.lin (fun k => v0 (ix2 p k)) (fun k => v3 (ix2 p k)) (fun k j => v5 (ix2 k j)) (fun k j => v7 (ix2 k j))
            (fun j => v10 (ix2 (0 : Fin 1) j)))
          (fun j => v32 (ix2 (0 : Fin 1) j)) (fun j => v36 (ix2 (0 : Fin 1) j)) q := by
  rw [pay_eq, normTail_apply]
  refine congrArg (fun f => Cert.Sage.normRelu f _ _ q) (funext fun j => ?_)
  exact preAct_apply v0 v3 v5 v7 v10 p j

end Cert.Sage.Block1

end
-- ==== Proof.Layers.lean ====
/-
  The two layers over whole arrays, and the neighbours' mean in its two spellings.

  `layer1` and `layer2` apply the row functions of the specification to every node's row: entry `(r, q)` of the result
  depends on row `r` of the neighbours' means and of the nodes' own features, on the weights and on the single rows
  (bias, scale, shift), given here as functions of the column.

  `meanMul S d` multiplies each entry of a segment sum `S` by the reciprocal of its row's count `d r`; `meanDiv S d`
  divides it by the count.  Where every count is a nonzero real the two arrays are equal, whatever `S` holds.
-/
import proofs.«136617_j46145128628312_1_alg».proof.Proof.Spec

noncomputable section

open scoped BigOperators

namespace Cert.Sage

open Idealize.ShloMosaic Idealize.ShloMosaic.ValueIdx

/-- The first layer: node `r`'s hidden features at column `q`. -/
def layer1 (A X : (⟨2, ![100000, 128]⟩ : Shape).Idx → EReal) (Wl Wr : (⟨2, ![128, 128]⟩ : Shape).Idx → EReal)
    (bl g b : Fin 128 → EReal) : (⟨2, ![100000, 128]⟩ : Shape).Idx → EReal :=
  fun i => normRelu
    (lin (fun k => A (ix2 (n0 := 100000) (n1 := 128) (i 0) k)) (fun k => X (ix2 (n0 := 100000) (n1 := 128) (i 0) k))
      (fun k j => Wl (ix2 k j)) (fun k j => Wr (ix2 k j)) bl) g b (i 1)

theorem layer1_apply (A X : (⟨2, ![100000, 128]⟩ : Shape).Idx → EReal) (Wl Wr : (⟨2, ![128, 128]⟩ : Shape).Idx → EReal)
    (bl g b : Fin 128 → EReal) (r : Fin 100000) (q : Fin 128) :
    layer1 A X Wl Wr bl g b (ix2 r q)
      = normRelu (lin (fun k => A (ix2 r k)) (fun k => X (ix2 r k)) (fun k j => Wl (ix2 k j)) (fun k j => Wr (ix2 k j)) bl)
          g b q := rfl

/-- The second layer: node `r`'s output at column `q`. -/
def layer2 (A X : (⟨2, ![100000, 128]⟩ : Shape).Idx → EReal) (Wl Wr : (⟨2, ![128, 64]⟩ : Shape).Idx → EReal)
    (bl : Fin 64 → EReal) : (⟨2, ![100000, 64]⟩ : Shape).Idx → EReal :=
  fun i => unitRow
    (lin (fun k => A (ix2 (n0 := 100000) (n1 := 128) (i 0) k)) (fun k => X (ix2 (n0 := 100000) (n1 := 128) (i 0) k))
      (fun k j => Wl (ix2 k j)) (fun k j => Wr (ix2 k j)) bl) (i 1)

theorem layer2_apply (A X : (⟨2, ![100000, 128]⟩ : Shape).Idx → EReal) (Wl Wr : (⟨2, ![128, 64]⟩ : Shape).Idx → EReal)
    (bl : Fin 64 → EReal) (r : Fin 100000) (q : Fin 64) :
    layer2 A X Wl Wr bl (ix2 r q)
      = unitRow (lin (fun k => A (ix2 r k)) (fun k => X (ix2 r k)) (fun k j => Wl (ix2 k j)) (fun k j => Wr (ix2 k j)) bl) q :=
  rfl

/-! ## The neighbours' mean -/

/-- A segment sum times the reciprocal of its row's count. -/
def meanMul (S : (⟨2, ![100000, 128]⟩ : Shape).Idx → EReal) (d : Fin 100000 → EReal) :
    (⟨2, ![100000, 128]⟩ : Shape).Idx → EReal :=
  fun i => S i * Ideal.div 1 (d (i 0))

/-- A segment sum divided by its row's count. -/
def meanDiv (S : (⟨2, ![100000, 128]⟩ : Shape).Idx → EReal) (d : Fin 100000 → EReal) :
    (⟨2, ![100000, 128]⟩ : Shape).Idx → EReal :=
  fun i => Ideal.div (S i) (d (i 0))

/-- With every count a nonzero real the two are one array. -/
theorem meanMul_eq_meanDiv (S : (⟨2, ![100000, 128]⟩ : Shape).Idx → EReal) (d : Fin 100000 → EReal)
    (hd : ∀ r, ∃ x : ℝ, x ≠ 0 ∧ d r = (x : EReal)) : meanMul S d = meanDiv S d := by
  funext i
  obtain ⟨x, hx, e⟩ := hd (i 0)
  unfold meanMul meanDiv
  rw [e]
  exact mul_one_div_eq_div hx (S i)

end Cert.Sage

end
-- ==== Proof.Array1.lean ====
/-
  The first kernel's output array once every grid point has written its block back: `layer1` of the arrays the
  region finds on entry.

  The grid has twenty points; point `t` stages rows `5000 t … 5000 t + 4999` of the neighbours' means and of the nodes'
  own features, the whole of both weight matrices and of the three single rows, and writes back the same rows of the
  result.  So what point `t` writes back is block `t` of ONE whole-array function, the blocks tile the array (row `r`
  lies in point `r / 5000`'s block), and the array ends holding that function.  Stated for any entry contents `V`.
-/
import proofs.«136617_j46145128628312_1_alg».proof.Proof.Gen.KernelIdeal.Frame
import proofs.«136617_j46145128628312_1_alg».proof.Proof.Block1
import proofs.«136617_j46145128628312_1_alg».proof.Proof.Layers
import Idealize.ShloMosaic.Lib.Pipeline.Value

set_option maxRecDepth 16384

noncomputable section

namespace Cert.Sage.Array1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at block row `t`,
    every other window at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt20 (t : Fin cfg0.N) : t.val < 20 := lt_of_lt_of_eq t.isLt (show cfg0.N = 20 from N_0)

/-- The array row that row `p` of point `t`'s block is. -/
def row (t : Fin cfg0.N) (p : Fin 5000) : Fin 100000 :=
  ⟨t.val * 5000 + p.val, by have := lt20 t; have := p.isLt; omega⟩

/-- The whole-array function the region computes, of the arrays as it finds them. -/
def out (c : Dev nD) : (⟨2, ![100000, 128]⟩ : Shape).Idx → EReal :=
  Cert.Sage.layer1 (V c main_v24) (V c main_arg0) (V c main_arg2) (V c main_arg4)
    (fun j => V c main_v25 (ix2 (0 : Fin 1) j)) (fun j => V c main_v26 (ix2 (0 : Fin 1) j))
    (fun j => V c main_v27 (ix2 (0 : Fin 1) j))

/-! ## Each input block, read where the output's block says -/

theorem rd0 (c : Dev nD) (t : Fin cfg0.N) (p : Fin 5000) (k : Fin 128) :
    iblk0 V c 0 t (ix2 p k) = V c main_v24 (ix2 (row t p) k) := by
  obtain ⟨e0, e1, -⟩ := idx_facts t
  show V c main_v24 (((cfg0.win 0).blk t).view.emb (ix2 p k)) = V c main_v24 (ix2 (row t p) k)
  refine congrArg (V c main_v24) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem rd1 (c : Dev nD) (t : Fin cfg0.N) (p : Fin 5000) (k : Fin 128) :
    iblk0 V c 1 t (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem rd2 (c : Dev nD) (t : Fin cfg0.N) (k j : Fin 128) :
    iblk0 V c 2 t (ix2 k j) = V c main_arg2 (ix2 k j) := by
  obtain ⟨-, -, -, -, e0, e1, -⟩ := idx_facts t
  show V c main_arg2 (((cfg0.win 2).blk t).view.emb (ix2 k j)) = V c main_arg2 (ix2 k j)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

theorem rd3 (c : Dev nD) (t : Fin cfg0.N) (j : Fin 128) :
    iblk0 V c 3 t (ix2 (0 : Fin 1) j) = V c main_v25 (ix2 (0 : Fin 1) j) := by
  obtain ⟨-, -, -, -, -, -, e0, e1, -⟩ := idx_facts t
  show V c main_v25 (((cfg0.win 3).blk t).view.emb (ix2 (0 : Fin 1) j)) = V c main_v25 (ix2 (0 : Fin 1) j)
  refine congrArg (V c main_v25) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem rd4 (c : Dev nD) (t : Fin cfg0.N) (k j : Fin 128) :
    iblk0 V c 4 t (ix2 k j) = V c main_arg4 (ix2 k j) := by
  obtain ⟨-, -, -, -, -, -, -, -, e0, e1, -⟩ := idx_facts t
  show V c main_arg4 (((cfg0.win 4).blk t).view.emb (ix2 k j)) = V c main_arg4 (ix2 k j)
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem rd5 (c : Dev nD) (t : Fin cfg0.N) (j : Fin 128) :
    iblk0 V c 5 t (ix2 (0 : Fin 1) j) = V c main_v26 (ix2 (0 : Fin 1) j) := by
  obtain ⟨-, -, -, -, -, -, -, -, -, -, e0, e1, -⟩ := idx_facts t
  show V c main_v26 (((cfg0.win 5).blk t).view.emb (ix2 (0 : Fin 1) j)) = V c main_v26 (ix2 (0 : Fin 1) j)
  refine congrArg (V c main_v26) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

theorem rd6 (c : Dev nD) (t : Fin cfg0.N) (j : Fin 128) :
    iblk0 V c 6 t (ix2 (0 : Fin 1) j) = V c main_v27 (ix2 (0 : Fin 1) j) := by
  obtain ⟨-, -, -, -, -, -, -, -, -, -, -, -, e0, e1, -⟩ := idx_facts t
  show V c main_v27 (((cfg0.win 6).blk t).view.emb (ix2 (0 : Fin 1) j)) = V c main_v27 (ix2 (0 : Fin 1) j)
  refine congrArg (V c main_v27) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

/-- Entry `(p, q)` of the output's block at point `t` is entry `(row t p, q)` of the array. -/
theorem emb7 (t : Fin cfg0.N) (p : Fin 5000) (q : Fin 128) :
    ((cfg0.win 7).blk t).view.emb (ix2 p q) = ix2 (row t p) q := by
  obtain ⟨-, -, -, -, -, -, -, -, -, -, -, -, -, -, e0, e1⟩ := idx_facts t
  funext a
  refine Fin.ext ?_
  match a with
  | ⟨0, _⟩ => show win0_7.index t (0 : Fin 2) * 5000 + 1 * p.val = t.val * 5000 + p.val; omega
  | ⟨1, _⟩ => show win0_7.index t (1 : Fin 2) * 128 + 1 * q.val = q.val; omega

/-! ## What a point writes back, the cover, the array -/

/-- WHAT POINT `t` WRITES BACK is block `t` of `out`. -/
theorem flushed_eq (c : Dev nD) (t : Fin cfg0.N) :
    (dat0 V c).flushed 7 t = ((cfg0.win 7).blk t).view.read (Elt Ideal) (out V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (k0_pay2 (iblk0 V c 0 t) (iblk0 V c 1 t) (iblk0 V c 2 t) (iblk0 V c 4 t) (iblk0 V c 3 t) (iblk0 V c 5 t))
      (k0_pay3 (iblk0 V c 6 t)) (ix2 p q) = out V c (((cfg0.win 7).blk t).view.emb (ix2 p q))
  refine (Cert.Sage.Block1.pay_apply (iblk0 V c 0 t) (iblk0 V c 1 t) (iblk0 V c 2 t) (iblk0 V c 4 t) (iblk0 V c 3 t)
    (iblk0 V c 5 t) (iblk0 V c 6 t) p q).trans ?_
  rw [emb7 t p q]
  unfold out
  rw [Cert.Sage.layer1_apply]
  simp only [rd0 V c t, rd1 V c t, rd2 V c t, rd3 V c t, rd4 V c t, rd5 V c t, rd6 V c t]

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v28).slice (win0_7.rect t)).set ↔ _
  rw [View.set_slice_whole, Rect.mem_set_unit]
  exact Iff.rfl

/-- Every index of the array lies in some point's block: row `r` in point `r / 5000`'s. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE ARRAY after the region: the first layer of the arrays the region found. -/
theorem final (c : Dev nD) : (dat0 V c).arrAt 7 cfg0.N = out V c :=
  (dat0 V c).arrAt_eq_of_cover 7 (out V c) (fun t _ => flushed_eq V c t) cover

end Cert.Sage.Array1

end
-- ==== Proof.Block2.lean ====
/-
  What the second layer's kernel leaves in its output block, entry by entry.

  The body reads a 5000-row block `a` of neighbours' means of the hidden features, the same rows `x` of the hidden
  features, the two 128 × 64 weight matrices and the bias row.  Its stored value at row `p`, column `q` is
  `unitRow (lin a[p,·] x[p,·] Wl Wr bias) q`: the linear part of the row divided by the row's Euclidean length, the
  length floored by a constant.  The matrix products are sums over the 128 inner columns and the one row reduction a
  sum over the row's 64 columns; every other operation acts entry by entry.
-/
import proofs.«136617_j46145128628312_1_alg».proof.Proof.Gen.KernelIdeal.Skeleton
import proofs.«136617_j46145128628312_1_alg».proof.Proof.Spec
import proofs.«136617_j46145128628312_1_alg».proof.Proof.LibCol
import Idealize.ShloMosaic.Lib.ValueIdx
import Idealize.ShloMosaic.Lib.ValueLayout
import Idealize.ShloMosaic.PureOps.Ideal.Laws

noncomputable section

open scoped BigOperators

namespace Cert.Sage.Block2

open Idealize.ShloMosaic Idealize.ShloMosaic.ValueIdx Cert.KernelIdeal Cert.KernelIdeal.Gen

/-! ## A 5000-row block times a 128 × 64 matrix -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at row `p` and column `j`: the sum over the inner index of the left row's
    entry times the right column's. -/
theorem prod_apply {φ₁ φ₂ : FTy} (l : FVec Ideal S5000x128 φ₁) (r : FVec Ideal S128x64 φ₂) (p : Fin 5000) (j : Fin 64) :
    matmul dot_S5000x128_S128x64_S5000x64_1_0_0_1_n_n none l r (constant (F := Ideal) S5000x64 .f32 0x00000000#32) (ix2 p j)
      = ∑ k : Fin 128, l (ix2 p k) * r (ix2 k j) := by
  refine (Ideal.matmul_constant_zero_apply dot_S5000x128_S128x64_S5000x64_1_0_0_1_n_n none l r (ix2 p j)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (rhs_0 _ _).trans hk
    | ⟨1, _⟩ => exact rhs_1 _ _)
  rw [el, er]

/-! ## The linear part -/

/-- The block before it is scaled to unit rows, as the body writes it. -/
def preAct (v0 v3 : FVec Ideal S5000x128 .f32) (v6 v8 : FVec Ideal S128x64 .f32) (v11 : FVec Ideal S1x64 .f32) :
    FVec Ideal S5000x64 .f32 :=
  addf (addf (matmul dot_S5000x128_S128x64_S5000x64_1_0_0_1_n_n none (truncf .bf16 (shapeCast S5000x128 v0 shapeCasts_S5000x128_S5000x128) bitsLt_bf16_f32)
        (truncf .bf16 v6 bitsLt_bf16_f32) (constant (F := Ideal) S5000x64 .f32 0x00000000#32))
      (broadcastTo S5000x64 (shapeCast S1x64 v11 shapeCasts_S1x64_S1x64) broadcasts_S1x64_S5000x64))
    (matmul dot_S5000x128_S128x64_S5000x64_1_0_0_1_n_n none (truncf .bf16 (shapeCast S5000x128 v3 shapeCasts_S5000x128_S5000x128) bitsLt_bf16_f32)
      (truncf .bf16 v8 bitsLt_bf16_f32) (constant (F := Ideal) S5000x64 .f32 0x00000000#32))

/-- Entry `(p, j)` of it is the layer's linear part of row `p` at column `j`. -/
theorem preAct_apply (v0 v3 : FVec Ideal S5000x128 .f32) (v6 v8 : FVec Ideal S128x64 .f32) (v11 : FVec Ideal S1x64 .f32)
    (p : Fin 5000) (j : Fin 64) :
    preAct v0 v3 v6 v8 v11 (ix2 p j)
      = Cert.Sage.lin (fun k => v0 (ix2 p k)) (fun k => v3 (ix2 p k)) (fun k j => v6 (ix2 k j)) (fun k j => v8 (ix2 k j))
          (fun j => v11 (ix2 (0 : Fin 1) j)) j := by
  unfold preAct Cert.Sage.lin
  rw [addf_apply, addf_apply, prod_apply, prod_apply, broadcastTo_1b_ab_apply, shapeCast_self, shapeCast_self, shapeCast_self]
  rfl

/-! ## The row's length -/

/-- The sum of a block's row. -/
theorem rowSum_apply (h : FVec Ideal S5000x64 .f32) (p : Fin 5000) :
    multiReduction .add [1] S5000 h 0x00000000#32 reduces_S5000x64_S5000 (.inl rfl) rfl (ix1 p)
      = ∑ k : Fin 64, h (ix2 p k) := by
  refine (Ideal.multiReduction_add_single h 0x00000000#32 reduces_S5000x64_S5000 (.inl rfl) rfl (ix1 p)).trans ?_
  refine Finset.sum_congr rfl fun k _ => congrArg h ?_
  funext a
  match a with
  | ⟨0, _⟩ => rfl
  | ⟨1, _⟩ => rfl

/-- Each row's Euclidean length, floored, kept as a column. -/
def lenCol (h : FVec Ideal S5000x64 .f32) : FVec Ideal S5000x1 .f32 :=
  maximumf
    (sqrt (shapeCast S5000x1 (multiReduction .add [1] S5000 (mulf h h) 0x00000000#32 reduces_S5000x64_S5000 (.inl rfl) rfl)
      shapeCasts_S5000_S5000x1))
    (broadcast S5000x1 (Scalar.ofBits (F := Ideal) .f32 0x2B8CBCCC#32))

theorem lenCol_apply (h : FVec Ideal S5000x64 .f32) (p : Fin 5000) :
    lenCol h (ix2 p (0 : Fin 1))
      = max (Ideal.sqrt (∑ q : Fin 64, h (ix2 p q) * h (ix2 p q))) Cert.Sage.wFloor := by
  unfold lenCol
  rw [maximumf_apply]
  show max (Ideal.sqrt (shapeCast S5000x1 _ shapeCasts_S5000_S5000x1 (ix2 p (0 : Fin 1)))) _ = _
  rw [Cert.LibCol.shapeCast_a_a1_apply, rowSum_apply]
  rfl

/-- Everything the body does to the linear part `h`: divide each row by its floored length. -/
def unitTail (h : FVec Ideal S5000x64 .f32) : FVec Ideal S5000x64 .f32 :=
  divf h (broadcastTo S5000x64 (lenCol h) broadcasts_S5000x1_S5000x64)

/-- The stored value is that tail of the linear part: the body's text, regrouped. -/
theorem pay_eq (v0 v3 : FVec Ideal S5000x128 .f32) (v6 v8 : FVec Ideal S128x64 .f32) (v11 : FVec Ideal S1x64 .f32) :
    k1_pay1 (F := Ideal) v0 v3 v6 v8 v11 = unitTail (preAct v0 v3 v6 v8 v11) := rfl

theorem unitTail_apply (h : FVec Ideal S5000x64 .f32) (p : Fin 5000) (q : Fin 64) :
    unitTail h (ix2 p q) = Cert.Sage.unitRow (fun j => h (ix2 p j)) q := by
  unfold unitTail Cert.Sage.unitRow
  rw [divf_apply, Cert.LibCol.broadcastTo_a1_ab_apply, lenCol_apply]

/-- THE BLOCK'S ENTRY `(p, q)`: the second layer's row function of the loaded rows. -/
theorem pay_apply (v0 v3 : FVec Ideal S5000x128 .f32) (v6 v8 : FVec Ideal S128x64 .f32) (v11 : FVec Ideal S1x64 .f32)
    (p : Fin 5000) (q : Fin 64) :
    k1_pay1 (F := Ideal) v0 v3 v6 v8 v11 (ix2 p q)
      = Cert.Sage.unitRow
          (Cert.Sage.lin (fun k => v0 (ix2 p k)) (fun k => v3 (ix2 p k)) (fun k j => v6 (ix2 k j)) (fun k j => v8 (ix2 k j))
            (fun j => v11 (ix2 (0 : Fin 1) j))) q := by
  rw [pay_eq, unitTail_apply]
  refine congrArg (fun f => Cert.Sage.unitRow f q) (funext fun j => ?_)
  exact preAct_apply v0 v3 v6 v8 v11 p j

end Cert.Sage.Block2

end
-- ==== Proof.Array2.lean ====
/-
  The second kernel's output array once every grid point has written its block back: `layer2` of the arrays the
  region finds on entry.

  As in the first kernel the grid has twenty points; point `t` stages rows `5000 t … 5000 t + 4999` of the neighbours'
  means of the hidden features and of the hidden features themselves, the whole of both 128 × 64 weight matrices and of
  the bias row, and writes back the same rows of the 64-column result.  The blocks tile the array, so it ends holding
  one whole-array function.  Stated for any entry contents `V`.
-/
import proofs.«136617_j46145128628312_1_alg».proof.Proof.Gen.KernelIdeal.Frame
import proofs.«136617_j46145128628312_1_alg».proof.Proof.Block2
import proofs.«136617_j46145128628312_1_alg».proof.Proof.Layers
import Idealize.ShloMosaic.Lib.Pipeline.Value

set_option maxRecDepth 16384

noncomputable section

namespace Cert.Sage.Array2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at block row `t`,
    every other window at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt20 (t : Fin cfg1.N) : t.val < 20 := lt_of_lt_of_eq t.isLt (show cfg1.N = 20 from N_1)

/-- The array row that row `p` of point `t`'s block is. -/
def row (t : Fin cfg1.N) (p : Fin 5000) : Fin 100000 :=
  ⟨t.val * 5000 + p.val, by have := lt20 t; have := p.isLt; omega⟩

/-- The whole-array function the region computes, of the arrays as it finds them. -/
def out (c : Dev nD) : (⟨2, ![100000, 64]⟩ : Shape).Idx → EReal :=
  Cert.Sage.layer2 (V c main_v40) (V c main_v28) (V c main_arg7) (V c main_arg9)
    (fun j => V c main_v41 (ix2 (0 : Fin 1) j))

/-! ## Each input block, read where the output's block says -/

theorem rd0 (c : Dev nD) (t : Fin cfg1.N) (p : Fin 5000) (k : Fin 128) :
    iblk1 V c 0 t (ix2 p k) = V c main_v40 (ix2 (row t p) k) := by
  obtain ⟨e0, e1, -⟩ := idx_facts t
  show V c main_v40 (((cfg1.win 0).blk t).view.emb (ix2 p k)) = V c main_v40 (ix2 (row t p) k)
  refine congrArg (V c main_v40) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem rd1 (c : Dev nD) (t : Fin cfg1.N) (p : Fin 5000) (k : Fin 128) :
    iblk1 V c 1 t (ix2 p k) = V c main_v28 (ix2 (row t p) k) := by
  obtain ⟨-, -, e0, e1, -⟩ := idx_facts t
  show V c main_v28 (((cfg1.win 1).blk t).view.emb (ix2 p k)) = V c main_v28 (ix2 (row t p) k)
  refine congrArg (V c main_v28) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem rd2 (c : Dev nD) (t : Fin cfg1.N) (k : Fin 128) (j : Fin 64) :
    iblk1 V c 2 t (ix2 k j) = V c main_arg7 (ix2 k j) := by
  obtain ⟨-, -, -, -, e0, e1, -⟩ := idx_facts t
  show V c main_arg7 (((cfg1.win 2).blk t).view.emb (ix2 k j)) = V c main_arg7 (ix2 k j)
  refine congrArg (V c main_arg7) (funext fun a => Fin.ext ?_)
  match a with
  | ⟨0, _⟩ => show win1_2.index t (0 : Fin 2) * 128 + 1 * k.val = k.val; omega
  | ⟨1, _⟩ => show win1_2.index t (1 : Fin 2) * 64 + 1 * j.val = j.val; omega

theorem rd3 (c : Dev nD) (t : Fin cfg1.N) (j : Fin 64) :
    iblk1 V c 3 t (ix2 (0 : Fin 1) j) = V c main_v41 (ix2 (0 : Fin 1) j) := by
  obtain ⟨-, -, -, -, -, -, e0, e1, -⟩ := idx_facts t
  show V c main_v41 (((cfg1.win 3).blk t).view.emb (ix2 (0 : Fin 1) j)) = V c main_v41 (ix2 (0 : Fin 1) j)
  refine congrArg (V c main_v41) (funext fun a => Fin.ext ?_)
  match a with
  | ⟨0, _⟩ => show win1_3.index t (0 : Fin 2) * 1 + 1 * 0 = 0; omega
  | ⟨1, _⟩ => show win1_3.index t (1 : Fin 2) * 64 + 1 * j.val = j.val; omega

theorem rd4 (c : Dev nD) (t : Fin cfg1.N) (k : Fin 128) (j : Fin 64) :
    iblk1 V c 4 t (ix2 k j) = V c main_arg9 (ix2 k j) := by
  obtain ⟨-, -, -, -, -, -, -, -, e0, e1, -⟩ := idx_facts t
  show V c main_arg9 (((cfg1.win 4).blk t).view.emb (ix2 k j)) = V c main_arg9 (ix2 k j)
  refine congrArg (V c main_arg9) (funext fun a => Fin.ext ?_)
  match a with
  | ⟨0, _⟩ => show win1_4.index t (0 : Fin 2) * 128 + 1 * k.val = k.val; omega
  | ⟨1, _⟩ => show win1_4.index t (1 : Fin 2) * 64 + 1 * j.val = j.val; omega

/-- Entry `(p, q)` of the output's block at point `t` is entry `(row t p, q)` of the array. -/
theorem emb5 (t : Fin cfg1.N) (p : Fin 5000) (q : Fin 64) :
    ((cfg1.win 5).blk t).view.emb (ix2 p q) = ix2 (row t p) q := by
  obtain ⟨-, -, -, -, -, -, -, -, -, -, e0, e1⟩ := idx_facts t
  funext a
  refine Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-! ## What a point writes back, the cover, the array -/

/-- WHAT POINT `t` WRITES BACK is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 4 t) (iblk1 V c 3 t) (ix2 p q)
      = out V c (((cfg1.win 5).blk t).view.emb (ix2 p q))
  refine (Cert.Sage.Block2.pay_apply (iblk1 V c 0 t) (iblk1 V c 1 t) (iblk1 V c 2 t) (iblk1 V c 4 t) (iblk1 V c 3 t) p q).trans ?_
  rw [emb5 t p q]
  unfold out
  rw [Cert.Sage.layer2_apply]
  simp only [rd0 V c t, rd1 V c t, rd2 V c t, rd3 V c t, rd4 V c t]

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v42).slice (win1_5.rect t)).set ↔ _
  rw [View.set_slice_whole, Rect.mem_set_unit]
  exact Iff.rfl

/-- Every index of the array lies in some point's block: row `r` in point `r / 5000`'s. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY after the region: the second layer of the arrays the region found. -/
theorem final (c : Dev nD) : (dat1 V c).arrAt 5 cfg1.N = out V c :=
  (dat1 V c).arrAt_eq_of_cover 5 (out V c) (fun t _ => flushed_eq V c t) cover

end Cert.Sage.Array2

end
-- ==== Proof.RefMeans.lean ====
/-
  The reference's neighbours' mean: a segment sum divided by a count.

  The count of node `r` is an accumulating scatter of ones into zeros at the edges' second endpoints, floored at one:
  zero plus a sum of ones over a finite set of edges, so a real number at least one (which edges land on `r` plays
  no part).  Stage 22 divides the segment sum of the gathered input rows
  (stage 13) by that count, entry by entry; stage 72 does the same for the hidden features (stage 63), with the count
  recomputed by the same operations.
-/
import proofs.«136617_j46145128628312_1_alg».proof.Proof.RefRead
import proofs.«136617_j46145128628312_1_alg».proof.Proof.Spec
import proofs.«136617_j46145128628312_1_alg».proof.Proof.Layers
import Idealize.ShloMosaic.Lib.ValueIdx
import Idealize.ShloMosaic.PureOps.Ideal.Laws

noncomputable section

open scoped BigOperators

namespace Cert.Sage.RefMeans

open Idealize.ShloMosaic Idealize.ShloMosaic.ValueIdx Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (x7 : (⟨S128x64, .f32⟩ : BufTy).Contents (Elt Ideal)) (x8 : (⟨S64, .f32⟩ : BufTy).Contents (Elt Ideal))
  (x9 : (⟨S128x64, .f32⟩ : BufTy).Contents (Elt Ideal))

/-! ## The count -/

/-- An accumulating scatter of ones into zeros, floored at one, is a nonzero real at every element: by definition
    the element holds its old value plus the sum of the updates that land on it, here zero plus a sum of ones over
    a finite set.  (Stated over the host operation itself and opened only here, at abstract shapes.) -/
theorem scatter_ones_real {s si su : Shape} (dd : ScatterDims s si su) {w : Nat} (x : FVec Ideal s .f32) (idx : IVec si w)
    (upd : FVec Ideal su .f32) (i : s.Idx) (hx : x i = 0) (hu : ∀ j, upd j = 1) :
    ∃ d : ℝ, d ≠ 0 ∧ max (Host.scatterAdd (F := Ideal) dd x idx upd i) 1 = (d : EReal) := by
  show ∃ d : ℝ, d ≠ 0 ∧ max (Ideal.hostScatterAdd dd x idx upd i) 1 = (d : EReal)
  unfold Ideal.hostScatterAdd
  rw [hx, Finset.sum_congr rfl (fun j _ => hu j)]
  exact Cert.Sage.count_real _

/-- Stage 17 is the accumulating scatter of stage 14 (ones) into stage 15 (zeros) at stage 16's indices. -/
theorem stage17 :
    val_main_v17 (F := Ideal) x1
      = Host.scatterAdd (F := Ideal) (φ := .f32) scatter_S100000_S1600000x1_S1600000_n_0_0_1 (val_main_v15 (F := Ideal))
          (val_main_v16 (F := Ideal) x1) (val_main_v14 (F := Ideal)) := rfl

/-- Node `r`'s count is a nonzero real: one plus nothing, or the number of edges ending at `r`. -/
theorem degree_real (r : Fin 100000) :
    ∃ d : ℝ, d ≠ 0 ∧ val_main_v19 (F := Ideal) x1 (ix1 r) = (d : EReal) := by
  have hz : val_main_v15 (F := Ideal) (ix1 r) = 0 := by
    rw [val_main_v15_apply, val_main_cst_2_apply]; exact Ideal.ofBits_zero_f32
  have hu : ∀ j, val_main_v14 (F := Ideal) j = 1 := fun j => by
    rw [val_main_v14_apply, val_main_cst_1_apply]; exact Cert.Sage.ofBits_one
  have h18 : val_main_v18 (F := Ideal) (ix1 r) = 1 := by
    rw [val_main_v18_apply, val_main_cst_3_apply]; exact Cert.Sage.ofBits_one
  obtain ⟨d, hd, e⟩ := scatter_ones_real scatter_S100000_S1600000x1_S1600000_n_0_0_1 (val_main_v15 (F := Ideal))
    (val_main_v16 (F := Ideal) x1) (val_main_v14 (F := Ideal)) (ix1 r) hz hu
  refine ⟨d, hd, ?_⟩
  rw [val_main_v19_apply, h18, stage17]
  exact e

/-- The second layer recomputes the count by the same operations (compared at any float family, where the two
    chains of operations match structurally). -/
theorem degree_again' {F : FTy → Type} [FloatOps F] (y1 : (⟨S2x1600000, .i32⟩ : BufTy).Contents (Elt F)) :
    val_main_v69 (F := F) y1 = val_main_v19 (F := F) y1 := rfl

theorem degree_again : val_main_v69 (F := Ideal) x1 = val_main_v19 (F := Ideal) x1 := degree_again' x1

/-! ## The two means -/

/-- Stage 22: the segment sum of the gathered input rows divided by the count. -/
theorem mean1 :
    val_main_v22 (F := Ideal) x0 x1
      = Cert.Sage.meanDiv (val_main_v13 (F := Ideal) x0 x1) (fun r => val_main_v19 (F := Ideal) x1 (ix1 r)) := by
  funext i
  obtain ⟨r, k, rfl⟩ : ∃ (r : Fin 100000) (k : Fin 128), i = ix2 r k := ⟨i 0, i 1, eq_ix2 i⟩
  rw [val_main_v22_apply, val_main_v21_apply, val_main_v20_apply]
  have hi : idx_main_v20 (idx_main_v21 (ix2 r k)) = ix1 r :=
    funext fun a => Fin.ext (by match a with | ⟨0, _⟩ => rfl)
  rw [hi]
  rfl

/-- Stage 72: the segment sum of the gathered hidden rows divided by the count. -/
theorem mean2 :
    val_main_v72 (F := Ideal) x0 x1 x2 x3 x4 x5 x6
      = Cert.Sage.meanDiv (val_main_v63 (F := Ideal) x0 x1 x2 x3 x4 x5 x6) (fun r => val_main_v19 (F := Ideal) x1 (ix1 r)) := by
  funext i
  obtain ⟨r, k, rfl⟩ : ∃ (r : Fin 100000) (k : Fin 128), i = ix2 r k := ⟨i 0, i 1, eq_ix2 i⟩
  rw [val_main_v72_apply, val_main_v71_apply, val_main_v70_apply, degree_again]
  have hi : idx_main_v70 (idx_main_v71 (ix2 r k)) = ix1 r :=
    funext fun a => Fin.ext (by match a with | ⟨0, _⟩ => rfl)
  rw [hi]
  rfl

end Cert.Sage.RefMeans

end
-- ==== Proof.RefStages.lean ====
/-
  The reference program's two layers, read index by index.

  Its stage 53 (the hidden features) is the first layer of its stage 22 (the neighbours' means of the inputs) and the
  inputs; its stage 86 (the result) is the second layer of its stage 72 (the neighbours' means of the hidden features)
  and stage 53.  Each stage between is one operation read at an index by the generated lemma for it: the matrix
  products are sums over the 128 inner columns, the three row reductions sums over the row's columns, the broadcasts
  repeat a column or a row, and every other operation acts entry by entry.
-/
import proofs.«136617_j46145128628312_1_alg».proof.Proof.RefRun
import proofs.«136617_j46145128628312_1_alg».proof.Proof.RefRead
import proofs.«136617_j46145128628312_1_alg».proof.Proof.Spec
import proofs.«136617_j46145128628312_1_alg».proof.Proof.Layers
import Idealize.ShloMosaic.Lib.ValueIdx
import Idealize.ShloMosaic.PureOps.Ideal.Laws

noncomputable section

open scoped BigOperators

namespace Cert.Sage.Ref

open Idealize.ShloMosaic Idealize.ShloMosaic.ValueIdx Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (x7 : (⟨S128x64, .f32⟩ : BufTy).Contents (Elt Ideal)) (x8 : (⟨S64, .f32⟩ : BufTy).Contents (Elt Ideal))
  (x9 : (⟨S128x64, .f32⟩ : BufTy).Contents (Elt Ideal))

/-! ## Where each stage reads its operands

  Entry `(r, q)` of a matrix product reads row `r` of the left factor and column `q` of the right; a row reduction's
  entry `r` reads row `r`; a column kept as a 1-wide array is read at `(r, 0)`; a single row repeated down the array is
  read at its column. -/

theorem lidx23 (r : Fin 100000) (q k : Fin 128) : lidx_main_v23 (ix2 r q) k = ix2 r k :=
  funext fun a => Fin.ext (by match a with | ⟨0, _⟩ => rfl | ⟨1, _⟩ => rfl)
theorem ridx23 (r : Fin 100000) (q k : Fin 128) : ridx_main_v23 (ix2 r q) k = ix2 k q :=
  funext fun a => Fin.ext (by match a with | ⟨0, _⟩ => rfl | ⟨1, _⟩ => rfl)
theorem lidx27 (r : Fin 100000) (q k : Fin 128) : lidx_main_v27 (ix2 r q) k = ix2 r k :=
  funext fun a => Fin.ext (by match a with | ⟨0, _⟩ => rfl | ⟨1, _⟩ => rfl)
theorem ridx27 (r : Fin 100000) (q k : Fin 128) : ridx_main_v27 (ix2 r q) k = ix2 k q :=
  funext fun a => Fin.ext (by match a with | ⟨0, _⟩ => rfl | ⟨1, _⟩ => rfl)
theorem idx25_24 (r : Fin 100000) (q : Fin 128) : idx_main_v24 (idx_main_v25 (ix2 r q)) = ix1 q :=
  funext fun a => Fin.ext (by match a with | ⟨0, _⟩ => rfl)
theorem idx48_47 (r : Fin 100000) (q : Fin 128) : idx_main_v47 (idx_main_v48 (ix2 r q)) = ix1 q :=
  funext fun a => Fin.ext (by match a with | ⟨0, _⟩ => rfl)
theorem idx51_50 (r : Fin 100000) (q : Fin 128) : idx_main_v50 (idx_main_v51 (ix2 r q)) = ix1 q :=
  funext fun a => Fin.ext (by match a with | ⟨0, _⟩ => rfl)
theorem idx29 (r : Fin 100000) (k : Fin 128) : idx_main_v29 (ix1 r) k = ix2 r k :=
  funext fun a => Fin.ext (by match a with | ⟨0, _⟩ => rfl | ⟨1, _⟩ => rfl)
theorem idx36 (r : Fin 100000) (k : Fin 128) : idx_main_v36 (ix1 r) k = ix2 r k :=
  funext fun a => Fin.ext (by match a with | ⟨0, _⟩ => rfl | ⟨1, _⟩ => rfl)
theorem idx30 (r : Fin 100000) : idx_main_v30 (ix2 r (0 : Fin 1)) = ix1 r :=
  funext fun a => Fin.ext (by match a with | ⟨0, _⟩ => rfl)
theorem idx37 (r : Fin 100000) : idx_main_v37 (ix2 r (0 : Fin 1)) = ix1 r :=
  funext fun a => Fin.ext (by match a with | ⟨0, _⟩ => rfl)
theorem idx33 (r : Fin 100000) (q : Fin 128) : idx_main_v33 (ix2 r q) = ix2 r (0 : Fin 1) :=
  funext fun a => Fin.ext (by match a with | ⟨0, _⟩ => rfl | ⟨1, _⟩ => rfl)
theorem idx40 (r : Fin 100000) (q : Fin 128) : idx_main_v40 (ix2 r q) = ix2 r (0 : Fin 1) :=
  funext fun a => Fin.ext (by match a with | ⟨0, _⟩ => rfl | ⟨1, _⟩ => rfl)
theorem idx45 (r : Fin 100000) (q : Fin 128) : idx_main_v45 (ix2 r q) = ix2 r (0 : Fin 1) :=
  funext fun a => Fin.ext (by match a with | ⟨0, _⟩ => rfl | ⟨1, _⟩ => rfl)

theorem lidx73 (r : Fin 100000) (q : Fin 64) (k : Fin 128) : lidx_main_v73 (ix2 r q) k = ix2 r k :=
  funext fun a => Fin.ext (by match a with | ⟨0, _⟩ => rfl | ⟨1, _⟩ => rfl)
theorem ridx73 (r : Fin 100000) (q : Fin 64) (k : Fin 128) : ridx_main_v73 (ix2 r q) k = ix2 k q :=
  funext fun a => Fin.ext (by match a with | ⟨0, _⟩ => rfl | ⟨1, _⟩ => rfl)
theorem lidx77 (r : Fin 100000) (q : Fin 64) (k : Fin 128) : lidx_main_v77 (ix2 r q) k = ix2 r k :=
  funext fun a => Fin.ext (by match a with | ⟨0, _⟩ => rfl | ⟨1, _⟩ => rfl)
theorem ridx77 (r : Fin 100000) (q : Fin 64) (k : Fin 128) : ridx_main_v77 (ix2 r q) k = ix2 k q :=
  funext fun a => Fin.ext (by match a with | ⟨0, _⟩ => rfl | ⟨1, _⟩ => rfl)
theorem idx75_74 (r : Fin 100000) (q : Fin 64) : idx_main_v74 (idx_main_v75 (ix2 r q)) = ix1 q :=
  funext fun a => Fin.ext (by match a with | ⟨0, _⟩ => rfl)
theorem idx80 (r : Fin 100000) (k : Fin 64) : idx_main_v80 (ix1 r) k = ix2 r k :=
  funext fun a => Fin.ext (by match a with | ⟨0, _⟩ => rfl | ⟨1, _⟩ => rfl)
theorem idx81 (r : Fin 100000) : idx_main_v81 (ix2 r (0 : Fin 1)) = ix1 r :=
  funext fun a => Fin.ext (by match a with | ⟨0, _⟩ => rfl)
theorem idx85 (r : Fin 100000) (q : Fin 64) : idx_main_v85 (ix2 r q) = ix2 r (0 : Fin 1) :=
  funext fun a => Fin.ext (by match a with | ⟨0, _⟩ => rfl | ⟨1, _⟩ => rfl)

/-! ## The first layer's linear part (stages 23 to 28) -/

/-- The neighbours' means times the first weight matrix, at `(r, j)`. -/
theorem v23_at (r : Fin 100000) (j : Fin 128) :
    val_main_v23 (F := Ideal) x0 x1 x2 (ix2 r j)
      = ∑ k : Fin 128, val_main_v22 (F := Ideal) x0 x1 (ix2 r k) * x2 (ix2 k j) := by
  refine (val_main_v23_apply x0 x1 x2 (ix2 r j)).trans (Finset.sum_congr rfl fun k _ => ?_)
  rewrite [lidx23, ridx23]
  rfl

/-- The nodes' own rows times the second weight matrix, at `(r, j)`. -/
theorem v27_at (r : Fin 100000) (j : Fin 128) :
    val_main_v27 (F := Ideal) x0 x4 (ix2 r j) = ∑ k : Fin 128, x0 (ix2 r k) * x4 (ix2 k j) := by
  refine (val_main_v27_apply x0 x4 (ix2 r j)).trans (Finset.sum_congr rfl fun k _ => ?_)
  rewrite [lidx27, ridx27]
  rfl

/-- The bias row repeated down the array. -/
theorem v25_at (r : Fin 100000) (j : Fin 128) : val_main_v25 (F := Ideal) x3 (ix2 r j) = x3 (ix1 j) := by
  rewrite [val_main_v25_apply, val_main_v24_apply, idx25_24]
  rfl

/-- Stage 28 at `(r, j)` is the layer's linear part of row `r` at column `j`. -/
theorem v28_at (r : Fin 100000) (j : Fin 128) :
    val_main_v28 (F := Ideal) x0 x1 x2 x3 x4 (ix2 r j)
      = Cert.Sage.lin (fun k => val_main_v22 (F := Ideal) x0 x1 (ix2 r k)) (fun k => x0 (ix2 r k))
          (fun k j => x2 (ix2 k j)) (fun k j => x4 (ix2 k j)) (fun j => x3 (ix1 j)) j := by
  unfold Cert.Sage.lin
  rewrite [val_main_v28_apply, val_main_v26_apply, v23_at, v25_at, v27_at]
  rfl

/-! ## The row's mean and the centred row (stages 29 to 34, 40, 41) -/

/-- The row sum: the sum's initial value is the zero word. -/
theorem v29_at (r : Fin 100000) :
    val_main_v29 (F := Ideal) x0 x1 x2 x3 x4 (ix1 r)
      = ∑ k : Fin 128, val_main_v28 (F := Ideal) x0 x1 x2 x3 x4 (ix2 r k) := by
  refine (val_main_v29_apply x0 x1 x2 x3 x4 (ix1 r)).trans ?_
  rewrite [val_main_cst_4_apply, Ideal.ofBits_def, Ideal.ofBits_zero_f32, zero_add]
  refine Finset.sum_congr rfl fun k _ => ?_
  rewrite [idx29]
  rfl

/-- The mean column: the row sum over 128. -/
theorem v32_at (r : Fin 100000) :
    val_main_v32 (F := Ideal) x0 x1 x2 x3 x4 (ix2 r (0 : Fin 1))
      = Cert.Sage.rowMean (fun j => val_main_v28 (F := Ideal) x0 x1 x2 x3 x4 (ix2 r j)) := by
  unfold Cert.Sage.rowMean
  rewrite [val_main_v32_apply, val_main_v30_apply, idx30, v29_at, val_main_v31_apply, val_main_cst_5_apply]
  rfl

/-- The mean repeated along the row (the program does this twice, stages 33 and 40). -/
theorem v33_at (r : Fin 100000) (q : Fin 128) :
    val_main_v33 (F := Ideal) x0 x1 x2 x3 x4 (ix2 r q)
      = Cert.Sage.rowMean (fun j => val_main_v28 (F := Ideal) x0 x1 x2 x3 x4 (ix2 r j)) := by
  rewrite [val_main_v33_apply, idx33]
  exact v32_at x0 x1 x2 x3 x4 r
theorem v40_at (r : Fin 100000) (q : Fin 128) :
    val_main_v40 (F := Ideal) x0 x1 x2 x3 x4 (ix2 r q)
      = Cert.Sage.rowMean (fun j => val_main_v28 (F := Ideal) x0 x1 x2 x3 x4 (ix2 r j)) := by
  rewrite [val_main_v40_apply, idx40]
  exact v32_at x0 x1 x2 x3 x4 r

/-- The centred entry (stages 34 and 41 are the same value). -/
theorem v34_at (r : Fin 100000) (q : Fin 128) :
    val_main_v34 (F := Ideal) x0 x1 x2 x3 x4 (ix2 r q)
      = val_main_v28 (F := Ideal) x0 x1 x2 x3 x4 (ix2 r q)
          - Cert.Sage.rowMean (fun j => val_main_v28 (F := Ideal) x0 x1 x2 x3 x4 (ix2 r j)) := by
  rewrite [val_main_v34_apply, v33_at]
  rfl
theorem v41_at (r : Fin 100000) (q : Fin 128) :
    val_main_v41 (F := Ideal) x0 x1 x2 x3 x4 (ix2 r q)
      = val_main_v28 (F := Ideal) x0 x1 x2 x3 x4 (ix2 r q)
          - Cert.Sage.rowMean (fun j => val_main_v28 (F := Ideal) x0 x1 x2 x3 x4 (ix2 r j)) := by
  rewrite [val_main_v41_apply, v40_at]
  rfl

/-! ## The row's variance and its reciprocal root (stages 35 to 45) -/

/-- The sum of the centred row's squares. -/
theorem v36_at (r : Fin 100000) :
    val_main_v36 (F := Ideal) x0 x1 x2 x3 x4 (ix1 r)
      = ∑ k : Fin 128,
          (val_main_v28 (F := Ideal) x0 x1 x2 x3 x4 (ix2 r k)
              - Cert.Sage.rowMean (fun j => val_main_v28 (F := Ideal) x0 x1 x2 x3 x4 (ix2 r j)))
            * (val_main_v28 (F := Ideal) x0 x1 x2 x3 x4 (ix2 r k)
              - Cert.Sage.rowMean (fun j => val_main_v28 (F := Ideal) x0 x1 x2 x3 x4 (ix2 r j))) := by
  refine (val_main_v36_apply x0 x1 x2 x3 x4 (ix1 r)).trans ?_
  rewrite [val_main_cst_6_apply, Ideal.ofBits_def, Ideal.ofBits_zero_f32, zero_add]
  refine Finset.sum_congr rfl fun k _ => ?_
  rewrite [idx36, val_main_v35_apply, v34_at]
  rfl

/-- The variance column. -/
theorem v39_at (r : Fin 100000) :
    val_main_v39 (F := Ideal) x0 x1 x2 x3 x4 (ix2 r (0 : Fin 1))
      = Cert.Sage.rowVar (fun j => val_main_v28 (F := Ideal) x0 x1 x2 x3 x4 (ix2 r j)) := by
  unfold Cert.Sage.rowVar
  rewrite [val_main_v39_apply, val_main_v37_apply, idx37, v36_at, val_main_v38_apply, val_main_cst_7_apply]
  rfl

/-- The reciprocal root of the variance plus the constant, repeated along the row. -/
theorem v45_at (r : Fin 100000) (q : Fin 128) :
    val_main_v45 (F := Ideal) x0 x1 x2 x3 x4 (ix2 r q)
      = Ideal.rsqrt (Cert.Sage.rowVar (fun j => val_main_v28 (F := Ideal) x0 x1 x2 x3 x4 (ix2 r j)) + Cert.Sage.wEps) := by
  rewrite [val_main_v45_apply, idx45, val_main_v44_apply, val_main_v43_apply, v39_at, val_main_v42_apply,
    val_main_cst_8_apply]
  rfl

/-! ## The affine map and the positive part (stages 46 to 53) -/

/-- The scale row and the shift row repeated down the array. -/
theorem v48_at (r : Fin 100000) (q : Fin 128) : val_main_v48 (F := Ideal) x5 (ix2 r q) = x5 (ix1 q) := by
  rewrite [val_main_v48_apply, val_main_v47_apply, idx48_47]
  rfl
theorem v51_at (r : Fin 100000) (q : Fin 128) : val_main_v51 (F := Ideal) x6 (ix2 r q) = x6 (ix1 q) := by
  rewrite [val_main_v51_apply, val_main_v50_apply, idx51_50]
  rfl

/-- Stage 53 at `(r, q)`: the normalised, mapped, positive part of stage 28's row `r`. -/
theorem v53_at (r : Fin 100000) (q : Fin 128) :
    val_main_v53 (F := Ideal) x0 x1 x2 x3 x4 x5 x6 (ix2 r q)
      = Cert.Sage.normRelu (fun j => val_main_v28 (F := Ideal) x0 x1 x2 x3 x4 (ix2 r j)) (fun j => x5 (ix1 j))
          (fun j => x6 (ix1 j)) q := by
  unfold Cert.Sage.normRelu
  rewrite [val_main_v53_apply, val_main_v52_apply, val_main_v49_apply, val_main_v46_apply, v41_at, v45_at, v48_at,
    v51_at, val_main_call0_v0_apply, val_main_call0_cst_apply]
  rfl

/-! ## The second layer (stages 73 to 86) -/

/-- The neighbours' means of the hidden features times the third weight matrix, at `(r, j)`. -/
theorem v73_at (r : Fin 100000) (j : Fin 64) :
    val_main_v73 (F := Ideal) x0 x1 x2 x3 x4 x5 x6 x7 (ix2 r j)
      = ∑ k : Fin 128, val_main_v72 (F := Ideal) x0 x1 x2 x3 x4 x5 x6 (ix2 r k) * x7 (ix2 k j) := by
  refine (val_main_v73_apply x0 x1 x2 x3 x4 x5 x6 x7 (ix2 r j)).trans (Finset.sum_congr rfl fun k _ => ?_)
  rewrite [lidx73, ridx73]
  rfl

/-- The hidden features times the fourth weight matrix, at `(r, j)`. -/
theorem v77_at (r : Fin 100000) (j : Fin 64) :
    val_main_v77 (F := Ideal) x0 x1 x2 x3 x4 x5 x6 x9 (ix2 r j)
      = ∑ k : Fin 128, val_main_v53 (F := Ideal) x0 x1 x2 x3 x4 x5 x6 (ix2 r k) * x9 (ix2 k j) := by
  refine (val_main_v77_apply x0 x1 x2 x3 x4 x5 x6 x9 (ix2 r j)).trans (Finset.sum_congr rfl fun k _ => ?_)
  rewrite [lidx77, ridx77]
  rfl

/-- The second bias row repeated down the array. -/
theorem v75_at (r : Fin 100000) (j : Fin 64) : val_main_v75 (F := Ideal) x8 (ix2 r j) = x8 (ix1 j) := by
  rewrite [val_main_v75_apply, val_main_v74_apply, idx75_74]
  rfl

/-- Stage 78 at `(r, j)` is the second layer's linear part of row `r` at column `j`. -/
theorem v78_at (r : Fin 100000) (j : Fin 64) :
    val_main_v78 (F := Ideal) x0 x1 x2 x3 x4 x5 x6 x7 x8 x9 (ix2 r j)
      = Cert.Sage.lin (fun k => val_main_v72 (F := Ideal) x0 x1 x2 x3 x4 x5 x6 (ix2 r k))
          (fun k => val_main_v53 (F := Ideal) x0 x1 x2 x3 x4 x5 x6 (ix2 r k))
          (fun k j => x7 (ix2 k j)) (fun k j => x9 (ix2 k j)) (fun j => x8 (ix1 j)) j := by
  unfold Cert.Sage.lin
  rewrite [val_main_v78_apply, val_main_v76_apply, v73_at, v75_at, v77_at]
  rfl

/-- The sum of the row's squares: the sum's initial value is the zero word. -/
theorem v80_at (r : Fin 100000) :
    val_main_v80 (F := Ideal) x0 x1 x2 x3 x4 x5 x6 x7 x8 x9 (ix1 r)
      = ∑ k : Fin 64, val_main_v78 (F := Ideal) x0 x1 x2 x3 x4 x5 x6 x7 x8 x9 (ix2 r k)
          * val_main_v78 (F := Ideal) x0 x1 x2 x3 x4 x5 x6 x7 x8 x9 (ix2 r k) := by
  refine (val_main_v80_apply x0 x1 x2 x3 x4 x5 x6 x7 x8 x9 (ix1 r)).trans ?_
  rewrite [val_main_cst_15_apply, Ideal.ofBits_def, Ideal.ofBits_zero_f32, zero_add]
  refine Finset.sum_congr rfl fun k _ => ?_
  rewrite [idx80, val_main_v79_apply]
  rfl

/-- The row's floored Euclidean length, repeated along the row. -/
theorem v85_at (r : Fin 100000) (q : Fin 64) :
    val_main_v85 (F := Ideal) x0 x1 x2 x3 x4 x5 x6 x7 x8 x9 (ix2 r q)
      = max (Ideal.sqrt (∑ k : Fin 64, val_main_v78 (F := Ideal) x0 x1 x2 x3 x4 x5 x6 x7 x8 x9 (ix2 r k)
          * val_main_v78 (F := Ideal) x0 x1 x2 x3 x4 x5 x6 x7 x8 x9 (ix2 r k))) Cert.Sage.wFloor := by
  rewrite [val_main_v85_apply, idx85, val_main_v84_apply, val_main_v82_apply, val_main_v81_apply, idx81, v80_at,
    val_main_v83_apply, val_main_cst_16_apply, Ideal.maximumf_def, Ideal.hostUnary_sqrt_def, Ideal.ofBits_def]
  rfl

/-- Stage 86 at `(r, q)`: stage 78's row `r` divided by its floored length. -/
theorem v86_at (r : Fin 100000) (q : Fin 64) :
    val_main_v86 (F := Ideal) x0 x1 x2 x3 x4 x5 x6 x7 x8 x9 (ix2 r q)
      = Cert.Sage.unitRow (fun j => val_main_v78 (F := Ideal) x0 x1 x2 x3 x4 x5 x6 x7 x8 x9 (ix2 r j)) q := by
  unfold Cert.Sage.unitRow
  rewrite [val_main_v86_apply, v85_at]
  rfl

/-! ## The two layers -/

/-- THE HIDDEN FEATURES: stage 53 is the first layer of stage 22 and the inputs. -/
theorem hidden_eq :
    val_main_v53 (F := Ideal) x0 x1 x2 x3 x4 x5 x6
      = Cert.Sage.layer1 (val_main_v22 (F := Ideal) x0 x1) x0 x2 x4 (fun j => x3 (ix1 j)) (fun j => x5 (ix1 j))
          (fun j => x6 (ix1 j)) := by
  funext i
  obtain ⟨r, q, rfl⟩ : ∃ (r : Fin 100000) (q : Fin 128), i = ix2 r q := ⟨i 0, i 1, eq_ix2 i⟩
  rewrite [Cert.Sage.layer1_apply, v53_at]
  exact congrArg (fun f => Cert.Sage.normRelu f _ _ q) (funext fun j => v28_at x0 x1 x2 x3 x4 r j)

/-- THE RESULT: stage 86 is the second layer of stage 72 and stage 53. -/
theorem result_eq :
    val_main_v86 (F := Ideal) x0 x1 x2 x3 x4 x5 x6 x7 x8 x9
      = Cert.Sage.layer2 (val_main_v72 (F := Ideal) x0 x1 x2 x3 x4 x5 x6) (val_main_v53 (F := Ideal) x0 x1 x2 x3 x4 x5 x6)
          x7 x9 (fun j => x8 (ix1 j)) := by
  funext i
  obtain ⟨r, q, rfl⟩ : ∃ (r : Fin 100000) (q : Fin 64), i = ix2 r q := ⟨i 0, i 1, eq_ix2 i⟩
  rewrite [Cert.Sage.layer2_apply, v86_at]
  exact congrArg (fun f => Cert.Sage.unitRow f q) (funext fun j => v78_at x0 x1 x2 x3 x4 x5 x6 x7 x8 x9 r j)

end Cert.Sage.Ref

end
-- ==== Proof.Bridge.lean ====
/-
  The kernel program's result buffer is the reference's last stage of the same arguments.

  Region one finds, as its first operand, the per-node sums of the gathered input rows TIMES the reciprocal of the
  floored counts.  The counts are nonzero reals, so that array is the sums DIVIDED by the counts, the reference's
  stage 22; with the other operands the arguments themselves (the three vectors laid out as rows), the region leaves
  the first layer of them, which is the reference's stage 53.  The host then sums the gathered rows of that array and
  multiplies by the same reciprocals: the reference's stage 72, by the same law.  Region two leaves the second layer
  of stages 72 and 53 and the remaining arguments: the reference's stage 86.
-/
import proofs.«136617_j46145128628312_1_alg».proof.Proof.HostChain
import proofs.«136617_j46145128628312_1_alg».proof.Proof.Array1
import proofs.«136617_j46145128628312_1_alg».proof.Proof.Array2
import proofs.«136617_j46145128628312_1_alg».proof.Proof.RefMeans
import proofs.«136617_j46145128628312_1_alg».proof.Proof.RefStages
import proofs.«136617_j46145128628312_1_alg».proof.Proof.Layers
import Idealize.ShloMosaic.Lib.ValueLayout
import Idealize.ShloMosaic.Lib.Pipeline.Value

set_option maxRecDepth 16384

noncomputable section

namespace Cert.Sage.Bridge

open Cert.KernelIdeal Cert.KernelIdeal.Gen
open Idealize.ShloMosaic Idealize.ShloMosaic.TcCoe Idealize.ShloMosaic.ValueIdx Idealize.SL.Sem
open Cert.Sage.HostChain

/-! ## The reciprocal column at an index -/

theorem bcast_col (y : FVec Ideal S100000x1 .f32) (r : Fin 100000) (k : Fin 128) :
    broadcastInDim S100000x128 ![0, 1] bcast_S100000x1_S100000x128_0_1 y (ix2 r k) = y (ix2 r (0 : Fin 1)) :=
  broadcastInDim_apply _ bcast_S100000x1_S100000x128_0_1 y (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

theorem bcast_vec (y : FVec Ideal S100000 .f32) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => match a with
    | ⟨0, _⟩ => by show r.val = if (100000 : Nat) = 1 then 0 else r.val; rw [if_neg (by decide)])

theorem bcast_one (r : Fin 100000) :
    broadcastInDim S100000 ![] bcast_S_S100000 (constant (F := Ideal) S_ .f32 0x3F800000#32) (ix1 r) = (1 : EReal) :=
  (broadcastInDim_apply _ bcast_S_S100000 (constant (F := Ideal) S_ .f32 0x3F800000#32) (ix1 r) ix0 (fun a => a.elim0)).trans
    Cert.Sage.ofBits_one

/-- Entry `(r, k)` of the spread reciprocal column is one over node `r`'s count. -/
theorem spread_invCol_apply (d : FVec Ideal S100000 .f32) (r : Fin 100000) (k : Fin 128) :
    spread (invCol d) (ix2 r k) = Ideal.div 1 (d (ix1 r)) := by
  unfold spread invCol
  rw [bcast_col, bcast_vec]
  show Ideal.div (broadcastInDim S100000 ![] bcast_S_S100000 (constant (F := Ideal) S_ .f32 0x3F800000#32) (ix1 r)) (d (ix1 r)) = _
  rw [bcast_one]

/-- A segment sum times the spread reciprocal column is the mean in its multiplying form. -/
theorem mul_spread (S : FVec Ideal S100000x128 .f32) (d : FVec Ideal S100000 .f32) :
    mulf S (spread (invCol d)) = Cert.Sage.meanMul S (fun r => d (ix1 r)) := by
  funext i
  obtain ⟨r, k, rfl⟩ : ∃ (r : Fin 100000) (k : Fin 128), i = ix2 r k := ⟨i 0, i 1, eq_ix2 i⟩
  show S (ix2 r k) * spread (invCol d) (ix2 r k) = _
  rw [spread_invCol_apply]
  rfl

variable (m : (ℓ : Loc nD τ sig) → Buf (Elt Ideal) ℓ) (ρ : Dev nD → PrngReg) (c : Dev nD)

/-! ## What region one finds, and leaves -/

/-- Its first operand is the reference's stage 22. -/
theorem entry1_mean : V1 m ρ c main_v24 = Cert.ReferenceIdeal.ReadP.val_main_v22 (F := Ideal) (m ((c : Thread nD τ).loc main_arg0)) (m ((c : Thread nD τ).loc main_arg1)) := by
  show W1 m ρ c (Proc.devRef .tc main_v24) = _
  rw [pre_v24, mul_spread, Cert.Sage.RefMeans.mean1,
    Cert.Sage.meanMul_eq_meanDiv _ _ (fun r => Cert.Sage.RefMeans.degree_real (m ((c : Thread nD τ).loc main_arg1)) r)]

theorem entry1_arg0 : V1 m ρ c main_arg0 = (m ((c : Thread nD τ).loc main_arg0)) := pre_arg m ρ c main_arg0 (.inl rfl)
theorem entry1_arg2 : V1 m ρ c main_arg2 = (m ((c : Thread nD τ).loc main_arg2)) := pre_arg m ρ c main_arg2 (.inr (.inl rfl))
theorem entry1_arg4 : V1 m ρ c main_arg4 = (m ((c : Thread nD τ).loc main_arg4)) := pre_arg m ρ c main_arg4 (.inr (.inr (.inl rfl)))

theorem entry1_row3 : (fun j : Fin 128 => V1 m ρ c main_v25 (ix2 (0 : Fin 1) j)) = fun j => (m ((c : Thread nD τ).loc main_arg3)) (ix1 j) := by
  funext j
  show W1 m ρ c (Proc.devRef .tc main_v25) (ix2 (0 : Fin 1) j) = _
  rw [pre_v25]
  exact shapeCast_a_1a_apply _ _ 0 j
theorem entry1_row5 : (fun j : Fin 128 => V1 m ρ c main_v26 (ix2 (0 : Fin 1) j)) = fun j => (m ((c : Thread nD τ).loc main_arg5)) (ix1 j) := by
  funext j
  show W1 m ρ c (Proc.devRef .tc main_v26) (ix2 (0 : Fin 1) j) = _
  rw [pre_v26]
  exact shapeCast_a_1a_apply _ _ 0 j
theorem entry1_row6 : (fun j : Fin 128 => V1 m ρ c main_v27 (ix2 (0 : Fin 1) j)) = fun j => (m ((c : Thread nD τ).loc main_arg6)) (ix1 j) := by
  funext j
  show W1 m ρ c (Proc.devRef .tc main_v27) (ix2 (0 : Fin 1) j) = _
  rw [pre_v27]
  exact shapeCast_a_1a_apply _ _ 0 j

/-- THE HIDDEN FEATURES: after region one its output array holds the reference's stage 53. -/
theorem hidden : W2 m ρ c (Proc.devRef .tc main_v28) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 7).trans ?_
  rw [Cert.Sage.Array1.final (V1 m ρ) c]
  unfold Cert.Sage.Array1.out
  rw [entry1_mean, entry1_arg0, entry1_arg2, entry1_arg4, entry1_row3, entry1_row5, entry1_row6]
  exact (Cert.Sage.Ref.hidden_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

/-! ## What region two finds, and leaves -/

/-- Its first operand is the reference's stage 72. -/
theorem entry2_mean : V3 m ρ c main_v40 = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show W3 m ρ c (Proc.devRef .tc main_v40) = _
  rw [mid_v40, hidden, W2_of_ne m ρ c main_v1 (by decide), W2_of_ne m ρ c main_v3 (by decide),
    W2_of_ne m ρ c main_v12 (by decide), pre_v1, pre_v3, pre_v12, ← ref_sum2, mul_spread, Cert.Sage.RefMeans.mean2,
    Cert.Sage.meanMul_eq_meanDiv _ _ (fun r => Cert.Sage.RefMeans.degree_real (m ((c : Thread nD τ).loc main_arg1)) r)]

theorem entry2_hidden : V3 m ρ c main_v28 = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (mid_keep m ρ c main_v28 (.inl rfl)).trans (hidden m ρ c)

theorem entry2_arg7 : V3 m ρ c main_arg7 = (m ((c : Thread nD τ).loc main_arg7)) :=
  (mid_keep m ρ c main_arg7 (.inr (.inl rfl))).trans
    ((W2_of_ne m ρ c main_arg7 (by decide)).trans (pre_arg m ρ c main_arg7 (.inr (.inr (.inr (.inl rfl))))))
theorem entry2_arg9 : V3 m ρ c main_arg9 = (m ((c : Thread nD τ).loc main_arg9)) :=
  (mid_keep m ρ c main_arg9 (.inr (.inr rfl))).trans
    ((W2_of_ne m ρ c main_arg9 (by decide)).trans (pre_arg m ρ c main_arg9 (.inr (.inr (.inr (.inr (.inr rfl)))))))

theorem entry2_row8 : (fun j : Fin 64 => V3 m ρ c main_v41 (ix2 (0 : Fin 1) j)) = fun j => (m ((c : Thread nD τ).loc main_arg8)) (ix1 j) := by
  funext j
  show W3 m ρ c (Proc.devRef .tc main_v41) (ix2 (0 : Fin 1) j) = _
  rw [mid_v41, W2_of_ne m ρ c main_arg8 (by decide), pre_arg m ρ c main_arg8 (.inr (.inr (.inr (.inr (.inl rfl)))))]
  exact shapeCast_a_1a_apply _ _ 0 j

/-- THE RESULT: after region two the program's result buffer holds the reference's stage 86. -/
theorem result : W4 m ρ c (Proc.devRef .tc main_v42) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  rw [Cert.Sage.Array2.final (V3 m ρ) c]
  unfold Cert.Sage.Array2.out
  rw [entry2_mean, entry2_hidden, entry2_arg7, entry2_arg9, entry2_row8]
  exact (Cert.Sage.Ref.result_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

end Cert.Sage.Bridge

end
-- ==== Proof.lean ====
/-
  Two graph-convolution layers on 100000 nodes and 1600000 edges: the kernel program against its jnp reference, on
  the extended reals.

  Both programs gather each edge's source row, sum the gathered rows at the edge's target node, and divide by the
  node's incoming-edge count floored at one; then a layer's linear part `(mean · Wl + bias) + own · Wr`.  Layer one
  normalises each 128-entry row (mean, variance plus a constant, reciprocal root), applies an affine map and keeps the
  positive part; layer two divides each 64-entry row by its Euclidean length floored by a constant.

  The kernel program does the gather, the segment sums and the count on the host exactly as the reference does, and
  runs each layer's dense part as one pipelined kernel over twenty blocks of 5000 rows.  It differs from the reference
  in one place per layer: it multiplies the segment sum by the RECIPROCAL of the count where the reference DIVIDES by
  the count.  A count is a sum of ones over a finite set, floored at one: a nonzero real; and for a nonzero real `d`,
  `a · (1 / d) = a / d` for every extended real `a`, the infinities included.  So the two agree for all inputs, and the
  precondition is never opened.  Everything else is the same operations in the same order and grouping: a matrix
  product is the sum over the inner index on both sides, a row reduction the sum over the row, and the changes of
  float format inside the kernels are the identity on extended reals.

  The frames of the two kernel programs are the generated frame certificates; the reference's is its run with the
  result dropped.  The kernel's idealization rewrote no operation, so that conjunct is trivial.  For the value, the
  kernel program's run names its result buffer at the last boundary's contents, which is the second region's output
  array; each region's output array is its layer applied to the arrays the region finds on entry (every grid point
  writes back one block of one whole-array function, and the blocks tile the array); the host operations before and
  between the regions are read back stage by stage; and the chain closes on the reference's last stage.
-/
import proofs.«136617_j46145128628312_1_alg».proof.Defs
import proofs.«136617_j46145128628312_1_alg».proof.Proof.Gen.Kernel
import proofs.«136617_j46145128628312_1_alg».proof.Proof.Gen.Kernel.Frame
import proofs.«136617_j46145128628312_1_alg».proof.Proof.Gen.KernelIdeal
import proofs.«136617_j46145128628312_1_alg».proof.Proof.Gen.KernelIdeal.Frame
import proofs.«136617_j46145128628312_1_alg».proof.Proof.Gen.ReferenceIdeal
import proofs.«136617_j46145128628312_1_alg».proof.Proof.Gen.Pre_finite_inputs
import proofs.«136617_j46145128628312_1_alg».proof.Proof.RefRun
import proofs.«136617_j46145128628312_1_alg».proof.Proof.RefRead
import proofs.«136617_j46145128628312_1_alg».proof.Proof.RunResult
import proofs.«136617_j46145128628312_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the ten arguments both programs end with the reference's last stage of those
    arguments in their result buffers. -/
theorem algebraic : Cert.algebraic_KernelIdeal_ReferenceIdeal := by
  intro m ρ m' ρ' _ hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Sage.Bridge.result m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v86_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
